-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x256 .f32) (main_arg6 : FVec F S2 .f32) (main_arg7 : FVec F S2x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S2x256 .f32 := Host.absf main_arg5
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S2x256 .f32 := Host.absf main_arg7
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S2x256 .f32) (main_arg6 : FVec F S2 .f32) (main_arg7 : FVec F S2x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S256x2 : Shape := ⟨2, ![256, 2]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 74
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S128x256, .bf16⟩
  | .hbm, ⟨39, _⟩ => ⟨S128x256, .f32⟩
  | .hbm, ⟨40, _⟩ => ⟨S128x256, .bf16⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S256x2, .f32⟩
  | .hbm, ⟨69, _⟩ => ⟨S256x2, .bf16⟩
  | .hbm, ⟨70, _⟩ => ⟨S256x2, .f32⟩
  | .hbm, ⟨71, _⟩ => ⟨S256x2, .bf16⟩
  | .hbm, ⟨72, _⟩ => ⟨S1x2, .f32⟩
  | .hbm, ⟨73, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x2, .bf16⟩
  | .local _ .vmem, ⟨14, _⟩ => ⟨S256x2, .bf16⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S2x256_S256x2_1_0 : S2x256.Transposes [1, 0] S256x2
  shapeCasts_S2_S1x2 : S2.ShapeCasts S1x2
  shapeCasts_S5000x256_S5000x256 : S5000x256.ShapeCasts S5000x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x2_S5000x2_1_0_0_1_n_n_wf : DotDims.WF S5000x256 S256x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x2.size a ≤ S256x2.size a
  hwx1_2 : ∀ i : grid1.Coords, EltTy.bits .bf16 = 32 ∨ (Rect.block (s := S256x2) S256x2.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2.size a ≤ S256x2.size a
  hwx1_3 : ∀ i : grid1.Coords, EltTy.bits .bf16 = 32 ∨ (Rect.block (s := S256x2) S256x2.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S50000x2.size a
  hwx1_5 : ∀ i : grid1.Coords, EltTy.bits .f32 = 32 ∨ (Rect.block (s := S50000x2) S5000x2.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x2_S5000x2_1_0_0_1_n_n : DotDims S5000x256 S256x2 S5000x2 where
  lhsContracting := [1]
  rhsContracting := [0]
  lhsNonContracting := [0]
  rhsNonContracting := [1]
  lhsBatch := []
  rhsBatch := []
  wf := dot_S5000x256_S256x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S256x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S256x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S2x256 : Shape := ⟨2, ![2, 256]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x2 : Shape := ⟨2, ![256, 2]⟩
abbrev S50000x2 : Shape := ⟨2, ![50000, 2]⟩
abbrev S1x2 : Shape := ⟨2, ![1, 2]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S2x256, .f32⟩
  | .hbm, ⟨6, _⟩ => ⟨S2, .f32⟩
  | .hbm, ⟨7, _⟩ => ⟨S2x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x2, .f32⟩
  | .hbm, ⟨74, _⟩ => ⟨S50000x2, .f32⟩
  | .hbm, ⟨75, _⟩ => ⟨S1x2, .f32⟩
  | .hbm, ⟨76, _⟩ => ⟨S50000x2, .f32⟩
  | .hbm, ⟨77, _⟩ => ⟨S50000x2, .f32⟩
  | .hbm, ⟨78, _⟩ => ⟨S256x2, .f32⟩
  | .hbm, ⟨79, _⟩ => ⟨S50000x2, .f32⟩
  | .hbm, ⟨80, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S2x256_S256x2_1_0 : S2x256.Transposes [1, 0] S256x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x2_S50000x2_1_0_0_1_n_n_wf : DotDims.WF S50000x256 S256x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KAgg.lean ====
/-
  The host side of the kernel's program, named once.

  Both layers aggregate over the same edge list: row 0 of the edge array holds each edge's source node (a negative
  entry wrapped by the node count before the gather), row 1 its target node.  The mean aggregation gathers the
  source rows, adds them into the target rows, and divides each target row by its in-degree clamped below by one.
  The chain is written here as plain compositions of the host operations, generic in the float family, so that a
  proof can carry it as one function and never open a gather or a scatter.
-/
import proofs.«136479_j45432164057403_1_alg».proof.Proof.Gen.KernelIdeal

noncomputable section

namespace Cert.KernelIdeal.Hand

open Cert.KernelIdeal Cert.KernelIdeal.Facts₀ Idealize.ShloMosaic

variable {F : FTy → Type} [FloatOps F]

/-- Row 0 of the edge array: the source node of each edge. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array: the target node of each edge. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's index column: a negative source wrapped by the node count. -/
def srcIdx (e : (⟨S2x800000, .i32⟩ : BufTy).Contents (Elt F)) : (⟨S800000x1, .i32⟩ : BufTy).Contents (Elt F) :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32))) (srcRow e))

/-- The scatter's index column. -/
def dstIdx (e : (⟨S2x800000, .i32⟩ : BufTy).Contents (Elt F)) : (⟨S800000x1, .i32⟩ : BufTy).Contents (Elt F) :=
  broadcastInDim S800000x1 ![0] bcast_S800000_S800000x1_0 (dstRow e)

/-- Each node's in-degree, clamped below by one. -/
def degree (e : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstIdx e)
      (broadcastInDim S800000 ![] bcast_S_S800000 (constant S_ .f32 0x3F800000#32)))
    (broadcastInDim S50000 ![] bcast_S_S50000 (constant S_ .f32 0x3F800000#32))

/-- The mean over in-neighbours of rows of 128 features. -/
def agg128 (x : (⟨S50000x128, .f32⟩ : BufTy).Contents (Elt F)) (e : (⟨S2x800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32)) (dstIdx e)
      (Host.gather gather_S50000x128_S800000x1_S800000x128_1_0_n_n_0_1_1128 x (srcIdx e)))
    (broadcastInDim S50000x128 ![0, 1] bcast_S50000x1_S50000x128_0_1
      (broadcastInDim S50000x1 ![0] bcast_S50000_S50000x1_0 (degree e)))

/-- The mean over in-neighbours of rows of 256 features. -/
def agg256 (x : (⟨S50000x256, .f32⟩ : BufTy).Contents (Elt F)) (e : (⟨S2x800000, .i32⟩ : BufTy).Contents (Elt F)) :
    (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32)) (dstIdx e)
      (Host.gather gather_S50000x256_S800000x1_S800000x256_1_0_n_n_0_1_1256 x (srcIdx e)))
    (broadcastInDim S50000x256 ![0, 1] bcast_S50000x1_S50000x256_0_1
      (broadcastInDim S50000x1 ![0] bcast_S50000_S50000x1_0 (degree e)))

/-- A first-layer weight as the kernel takes it: transposed to 128 rows, narrowed. -/
def wT128 (w : (⟨S256x128, .f32⟩ : BufTy).Contents (Elt F)) : (⟨S128x256, .bf16⟩ : BufTy).Contents (Elt F) :=
  truncf .bf16 (transpose S128x256 [1, 0] w transposes_S256x128_S128x256_1_0) bitsLt_bf16_f32

/-- A second-layer weight as the kernel takes it: transposed to 256 rows, narrowed. -/
def wT256 (w : (⟨S2x256, .f32⟩ : BufTy).Contents (Elt F)) : (⟨S256x2, .bf16⟩ : BufTy).Contents (Elt F) :=
  truncf .bf16 (transpose S256x2 [1, 0] w transposes_S2x256_S256x2_1_0) bitsLt_bf16_f32

end Cert.KernelIdeal.Hand

end
-- ==== Proof.HostK.lean ====
/-
  The arrays each region of the kernel's program finds, as functions of the arguments.

  Before the first region the host computes the mean aggregation of the node features, the two first-layer weights
  transposed and narrowed, and the first bias as one row; the node features themselves pass through untouched.
  Between the regions it computes the same aggregation of the first region's output (over the same edge rows, which
  the first stretch extracted), the two second-layer weights transposed and narrowed, and the second bias as one row;
  the first region's output passes through untouched.  Each is read off the fold of the stretch's operations over the
  contents the stretch starts from.
-/
import proofs.«136479_j45432164057403_1_alg».proof.Proof.KernelIdealFrame
import proofs.«136479_j45432164057403_1_alg».proof.Proof.KAgg
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

set_option maxHeartbeats 4000000 in
/-- The aggregated node features. -/
theorem V1_agg (c : Dev nD) : (V1 m ρ c main_v22 : (⟨S50000x128, .f32⟩ : BufTy).Contents (Elt F))
    = agg128 (m ((c : Thread nD τ).loc main_arg0)) (m ((c : Thread nD τ).loc main_arg1)) := by
  show StableHlo.after hostOps0 (W0 m ρ c) (Proc.devRef .tc main_v22) = _
  after_results_simp
  rfl

set_option maxHeartbeats 4000000 in
/-- The node features, untouched. -/
theorem V1_feat (c : Dev nD) : (V1 m ρ c main_arg0 : (⟨S50000x128, .f32⟩ : BufTy).Contents (Elt F))
    = m ((c : Thread nD τ).loc main_arg0) := by
  show StableHlo.after hostOps0 (W0 m ρ c) (Proc.devRef .tc main_arg0) = _
  after_results_simp

set_option maxHeartbeats 4000000 in
/-- The neighbour weight of the first layer. -/
theorem V1_wl (c : Dev nD) : (V1 m ρ c main_v24 : (⟨S128x256, .bf16⟩ : BufTy).Contents (Elt F))
    = wT128 (m ((c : Thread nD τ).loc main_arg2)) := by
  show StableHlo.after hostOps0 (W0 m ρ c) (Proc.devRef .tc main_v24) = _
  after_results_simp
  rfl

set_option maxHeartbeats 4000000 in
/-- The self weight of the first layer. -/
theorem V1_wr (c : Dev nD) : (V1 m ρ c main_v26 : (⟨S128x256, .bf16⟩ : BufTy).Contents (Elt F))
    = wT128 (m ((c : Thread nD τ).loc main_arg4)) := by
  show StableHlo.after hostOps0 (W0 m ρ c) (Proc.devRef .tc main_v26) = _
  after_results_simp
  rfl

set_option maxHeartbeats 4000000 in
/-- The first bias as one row. -/
theorem V1_bias (c : Dev nD) : (V1 m ρ c main_v27 : (⟨S1x256, .f32⟩ : BufTy).Contents (Elt F))
    = shapeCast S1x256 (m ((c : Thread nD τ).loc main_arg3)) shapeCasts_S256_S1x256 := by
  show StableHlo.after hostOps0 (W0 m ρ c) (Proc.devRef .tc main_v27) = _
  after_results_simp
  rfl

set_option maxHeartbeats 4000000 in
/-- The edges' source row, as the first stretch extracts it. -/
theorem W1_src (c : Dev nD) : (W1 m ρ c (Proc.devRef .tc main_v1) : (⟨S800000, .i32⟩ : BufTy).Contents (Elt F))
    = srcRow (m ((c : Thread nD τ).loc main_arg1)) := by
  show StableHlo.after hostOps0 (W0 m ρ c) (Proc.devRef .tc main_v1) = _
  after_results_simp
  rfl

set_option maxHeartbeats 4000000 in
/-- The edges' target row, as the first stretch extracts it. -/
theorem W1_dst (c : Dev nD) : (W1 m ρ c (Proc.devRef .tc main_v3) : (⟨S800000, .i32⟩ : BufTy).Contents (Elt F))
    = dstRow (m ((c : Thread nD τ).loc main_arg1)) := by
  show StableHlo.after hostOps0 (W0 m ρ c) (Proc.devRef .tc main_v3) = _
  after_results_simp
  rfl

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## Across the first region: only its output buffer changes -/

theorem W2_src (c : Dev nD) : (W2 m ρ c (Proc.devRef .tc main_v1) : (⟨S800000, .i32⟩ : BufTy).Contents (Elt F))
    = srcRow (m ((c : Thread nD τ).loc main_arg1)) :=
  (W2_of_ne m ρ c main_v1 (by decide)).trans (W1_src m ρ c)

theorem W2_dst (c : Dev nD) : (W2 m ρ c (Proc.devRef .tc main_v3) : (⟨S800000, .i32⟩ : BufTy).Contents (Elt F))
    = dstRow (m ((c : Thread nD τ).loc main_arg1)) :=
  (W2_of_ne m ρ c main_v3 (by decide)).trans (W1_dst m ρ c)

theorem W2_arg5 (c : Dev nD) : W2 m ρ c (Proc.devRef .tc main_arg5) = m ((c : Thread nD τ).loc main_arg5) :=
  (W2_of_ne m ρ c main_arg5 (by decide)).trans (W1_arg5 m ρ c)

theorem W2_arg6 (c : Dev nD) : W2 m ρ c (Proc.devRef .tc main_arg6) = m ((c : Thread nD τ).loc main_arg6) :=
  (W2_of_ne m ρ c main_arg6 (by decide)).trans (W1_arg6 m ρ c)

theorem W2_arg7 (c : Dev nD) : W2 m ρ c (Proc.devRef .tc main_arg7) = m ((c : Thread nD τ).loc main_arg7) :=
  (W2_of_ne m ρ c main_arg7 (by decide)).trans (W1_arg7 m ρ c)

/-- The first region's output buffer holds what its pipeline leaves. -/
theorem W2_hidden (c : Dev nD) : W2 m ρ c (Proc.devRef .tc main_v28) = (dat0 (V1 m ρ) c).arrAt 5 cfg0.N :=
  W2_arr m ρ c 5

/-! ## Before the second region -/

set_option maxHeartbeats 4000000 in
/-- The aggregated hidden features. -/
theorem V3_agg (c : Dev nD) : (V3 m ρ c main_v47 : (⟨S50000x256, .f32⟩ : BufTy).Contents (Elt F))
    = agg256 (W2 m ρ c (Proc.devRef .tc main_v28)) (m ((c : Thread nD τ).loc main_arg1)) := by
  show StableHlo.after hostOps1 (W2 m ρ c) (Proc.devRef .tc main_v47) = _
  after_results_simp
  unfold agg256 degree dstIdx srcIdx
  rw [← W2_src m ρ c, ← W2_dst m ρ c]

set_option maxHeartbeats 4000000 in
/-- The hidden features, untouched. -/
theorem V3_feat (c : Dev nD) : V3 m ρ c main_v28 = W2 m ρ c (Proc.devRef .tc main_v28) := by
  show StableHlo.after hostOps1 (W2 m ρ c) (Proc.devRef .tc main_v28) = _
  after_results_simp

set_option maxHeartbeats 4000000 in
/-- The neighbour weight of the second layer. -/
theorem V3_wl (c : Dev nD) : (V3 m ρ c main_v49 : (⟨S256x2, .bf16⟩ : BufTy).Contents (Elt F))
    = wT256 (m ((c : Thread nD τ).loc main_arg5)) := by
  show StableHlo.after hostOps1 (W2 m ρ c) (Proc.devRef .tc main_v49) = _
  after_results_simp
  rw [W2_arg5 m ρ c]
  rfl

set_option maxHeartbeats 4000000 in
/-- The self weight of the second layer. -/
theorem V3_wr (c : Dev nD) : (V3 m ρ c main_v51 : (⟨S256x2, .bf16⟩ : BufTy).Contents (Elt F))
    = wT256 (m ((c : Thread nD τ).loc main_arg7)) := by
  show StableHlo.after hostOps1 (W2 m ρ c) (Proc.devRef .tc main_v51) = _
  after_results_simp
  rw [W2_arg7 m ρ c]
  rfl

set_option maxHeartbeats 4000000 in
/-- The second bias as one row. -/
theorem V3_bias (c : Dev nD) : (V3 m ρ c main_v52 : (⟨S1x2, .f32⟩ : BufTy).Contents (Elt F))
    = shapeCast S1x2 (m ((c : Thread nD τ).loc main_arg6)) shapeCasts_S2_S1x2 := by
  show StableHlo.after hostOps1 (W2 m ρ c) (Proc.devRef .tc main_v52) = _
  after_results_simp
  rw [W2_arg6 m ρ c]
  rfl

end Cert.KernelIdeal.Hand

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  One layer of a mean-aggregating graph convolution, as a function of whole arrays at the ideal values.

  A node `n` carries a row of `K` features.  A layer sends it to a row of `H` features: the mean of its
  in-neighbours' rows times one weight matrix, plus its own row times a second weight matrix, plus a bias,
      out[n, h] = (∑ k, agg[n, k] · wl[k, h]  +  ∑ k, feat[n, k] · wr[k, h])  +  b[h],
  the bias given as a function of the column,
  optionally followed by the positive part.  The weights are taken already transposed (`K` rows, `H` columns).
  The two sums and the bias may be added in either order: on the extended reals addition is commutative and
  associative (only distributivity and cancellation fail at the infinities), so no finiteness is needed.
-/
import Idealize.ShloMosaic.Lib.ValueIdx
import Idealize.ShloMosaic.PureOps.Ideal.Laws

noncomputable section

open scoped BigOperators

namespace SageSpec

open Idealize.ShloMosaic Idealize.ShloMosaic.ValueIdx

variable {N K H : ℕ}

/-- The linear combine at node `n`, output feature `h`: aggregated row times `wl`, own row times `wr`, then the bias. -/
def lin (agg feat : (⟨2, ![N, K]⟩ : Shape).Idx → EReal) (wl wr : (⟨2, ![K, H]⟩ : Shape).Idx → EReal)
    (b : Fin H → EReal) (n : Fin N) (h : Fin H) : EReal :=
  ((∑ k : Fin K, agg (ix2 n k) * wl (ix2 k h)) + ∑ k : Fin K, feat (ix2 n k) * wr (ix2 k h)) + b h

/-- A layer without nonlinearity, as an array. -/
def layer (agg feat : (⟨2, ![N, K]⟩ : Shape).Idx → EReal) (wl wr : (⟨2, ![K, H]⟩ : Shape).Idx → EReal)
    (b : Fin H → EReal) : (⟨2, ![N, H]⟩ : Shape).Idx → EReal :=
  fun i => lin agg feat wl wr b (i 0) (i 1)

/-- A layer followed by the positive part (against the all-zero word both programs spell). -/
def layerRelu (agg feat : (⟨2, ![N, K]⟩ : Shape).Idx → EReal) (wl wr : (⟨2, ![K, H]⟩ : Shape).Idx → EReal)
    (b : Fin H → EReal) : (⟨2, ![N, H]⟩ : Shape).Idx → EReal :=
  fun i => max (lin agg feat wl wr b (i 0) (i 1)) (Ideal.ofBits .f32 0x00000000#32)

theorem layer_apply (agg feat : (⟨2, ![N, K]⟩ : Shape).Idx → EReal) (wl wr : (⟨2, ![K, H]⟩ : Shape).Idx → EReal)
    (b : Fin H → EReal) (n : Fin N) (h : Fin H) :
    layer agg feat wl wr b (ix2 n h) = lin agg feat wl wr b n h := rfl

theorem layerRelu_apply (agg feat : (⟨2, ![N, K]⟩ : Shape).Idx → EReal) (wl wr : (⟨2, ![K, H]⟩ : Shape).Idx → EReal)
    (b : Fin H → EReal) (n : Fin N) (h : Fin H) :
    layerRelu agg feat wl wr b (ix2 n h) = max (lin agg feat wl wr b n h) (Ideal.ofBits .f32 0x00000000#32) := rfl

/-- Adding the bias BEFORE the second product gives the same value: `(A + b) + B = (A + B) + b`. -/
theorem lin_bias_first (agg feat : (⟨2, ![N, K]⟩ : Shape).Idx → EReal) (wl wr : (⟨2, ![K, H]⟩ : Shape).Idx → EReal)
    (b : Fin H → EReal) (n : Fin N) (h : Fin H) :
    ((∑ k : Fin K, agg (ix2 n k) * wl (ix2 k h)) + b h) + ∑ k : Fin K, feat (ix2 n k) * wr (ix2 k h)
      = lin agg feat wl wr b n h :=
  add_right_comm _ _ _

end SageSpec

end
-- ==== Proof.Layer1Value.lean ====
/-
  The first layer, read off the first region's pipeline.

  The region walks the 50000 nodes in ten tiles of 5000 rows.  At tile `t` the body loads rows `5000·t … 5000·t + 4999`
  of the aggregated features and of the node features, the two transposed weight matrices whole, and the bias row, and
  stores  max((agg_tile · Wl + x_tile · Wr) + bias, 0)  as the same rows of the output.  Row `p` of tile `t` depends only on row
  `5000·t + p` of the two inputs, so every tile is the restriction of ONE whole-array function, `SageSpec.layerRelu`, and since
  the ten tiles cover the output, the output array ends holding that function of the arrays the region found.
  Everything is stated at a parameter `V`, the buffer contents when the region is entered.
-/
import proofs.«136479_j45432164057403_1_alg».proof.Proof.KernelIdealFrame
import proofs.«136479_j45432164057403_1_alg».proof.Proof.LibRowOps
import proofs.«136479_j45432164057403_1_alg».proof.Proof.Spec
import Idealize.ShloMosaic.Lib.Pipeline.Value
import Idealize.ShloMosaic.Lib.ValueLayout

noncomputable section

open scoped BigOperators

namespace Cert.KernelIdeal.Layer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's contraction is the plain matrix product: rows of the left against columns of the right. -/
theorem hdot : dot_S5000x128_S128x256_S5000x256_1_0_0_1_n_n = DotDims.plain 5000 128 256 := rfl

/-- What the body stores at row `p`, column `q` of its tile, from the blocks it loaded. -/
theorem pay_apply (x0 x1 : Vec Ideal S5000x128 .f32) (x2 x3 : Vec Ideal S128x256 .bf16) (x4 : Vec Ideal S1x256 .f32)
    (p : Fin 5000) (q : Fin 256) :
    k0_pay1 x0 x1 x2 x3 x4 (ix2 p q)
      = max (((∑ k : Fin 128, x0 (ix2 p k) * x2 (ix2 k q)) + ∑ k : Fin 128, x1 (ix2 p k) * x3 (ix2 k q)) + x4 (ix2 (0 : Fin 1) q))
          (Ideal.ofBits .f32 0x00000000#32) := by
  unfold k0_pay1
  simp only [shapeCast_self]
  show max ((matmul (F := Ideal) dot_S5000x128_S128x256_S5000x256_1_0_0_1_n_n none (truncf .bf16 x0 bitsLt_bf16_f32) x2 (constant (F := Ideal) S5000x256 .f32 0x00000000#32) (ix2 p q)
      + matmul (F := Ideal) dot_S5000x128_S128x256_S5000x256_1_0_0_1_n_n none (truncf .bf16 x1 bitsLt_bf16_f32) x3 (constant (F := Ideal) S5000x256 .f32 0x00000000#32) (ix2 p q))
      + broadcastTo S5000x256 x4 broadcasts_S1x256_S5000x256 (ix2 p q)) (Ideal.ofBits .f32 0x00000000#32) = _
  rw [RowOps.matmul_plain_apply _ hdot, RowOps.matmul_plain_apply _ hdot, broadcastTo_1b_ab_apply]
  rfl

/-- The layer's output as one function of the five arrays the region reads (the bias given as its one row). -/
abbrev out (a f : S50000x128.Idx → Elt Ideal .f32) (wl wr : S128x256.Idx → Elt Ideal .bf16) (b : S1x256.Idx → Elt Ideal .f32) :
    S50000x256.Idx → Elt Ideal .f32 :=
  SageSpec.layerRelu (N := 50000) (K := 128) (H := 256) a f wl wr (fun q => b (ix2 (0 : Fin 1) q))

/-- A tile whose rows are rows `n` of the two inputs stores row `n` of the layer's output. -/
theorem tile_eq (x0 x1 : Vec Ideal S5000x128 .f32) (x2 x3 : Vec Ideal S128x256 .bf16) (x4 : Vec Ideal S1x256 .f32)
    (a f : S50000x128.Idx → Elt Ideal .f32) (p : Fin 5000) (q : Fin 256) (n : Fin 50000)
    (h0 : ∀ k : Fin 128, x0 (ix2 p k) = a (ix2 n k)) (h1 : ∀ k : Fin 128, x1 (ix2 p k) = f (ix2 n k)) :
    k0_pay1 x0 x1 x2 x3 x4 (ix2 p q) = out a f x2 x3 x4 (ix2 n q) := by
  rw [pay_apply]
  show _ = max (SageSpec.lin a f x2 x3 (fun q => x4 (ix2 (0 : Fin 1) q)) n q) _
  unfold SageSpec.lin
  simp only [h0, h1]

/-- The printed index maps over the grid: the two row-blocked inputs and the output move one tile per point,
    the weights and the bias stay at block zero. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `p` of the aggregated features' tile `t` is row `5000·t + p` of the array. -/
theorem agg_rows (c : Dev nD) (t : Fin cfg0.N) (p : Fin 5000) (k : Fin 128) (n : Fin 50000) (hn : n.val = t.val * 5000 + p.val) :
    (iblk0 V c 0 t : Vec Ideal S5000x128 .f32) (ix2 p k) = (V c main_v22 : S50000x128.Idx → Elt Ideal .f32) (ix2 n k) := by
  obtain ⟨e0, e1, -⟩ := idx_facts t
  show V c main_v22 (((cfg0.win 0).blk t).view.emb (ix2 p k)) = V c main_v22 (ix2 n k)
  refine congrArg _ (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row `p` of the node features' tile `t` is row `5000·t + p` of the array. -/
theorem feat_rows (c : Dev nD) (t : Fin cfg0.N) (p : Fin 5000) (k : Fin 128) (n : Fin 50000) (hn : n.val = t.val * 5000 + p.val) :
    (iblk0 V c 1 t : Vec Ideal S5000x128 .f32) (ix2 p k) = (V c main_arg0 : S50000x128.Idx → Elt Ideal .f32) (ix2 n k) := by
  obtain ⟨-, -, e0, e1, -⟩ := idx_facts t
  show V c main_arg0 (((cfg0.win 1).blk t).view.emb (ix2 p k)) = V c main_arg0 (ix2 n k)
  refine congrArg _ (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- The first weight window's block is the whole array at every point. -/
theorem wl_whole (c : Dev nD) (t : Fin cfg0.N) : (iblk0 V c 2 t : Vec Ideal S128x256 .bf16) = V c main_v24 := by
  obtain ⟨-, -, -, -, e0, e1, -⟩ := idx_facts t
  funext y
  show V c main_v24 (((cfg0.win 2).blk t).view.emb y) = V c main_v24 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- The second weight window's block is the whole array at every point. -/
theorem wr_whole (c : Dev nD) (t : Fin cfg0.N) : (iblk0 V c 3 t : Vec Ideal S128x256 .bf16) = V c main_v26 := by
  obtain ⟨-, -, -, -, -, -, e0, e1, -⟩ := idx_facts t
  funext y
  show V c main_v26 (((cfg0.win 3).blk t).view.emb y) = V c main_v26 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias window's block is the whole one-row array at every point. -/
theorem bias_whole (c : Dev nD) (t : Fin cfg0.N) : (iblk0 V c 4 t : Vec Ideal S1x256 .f32) = V c main_v27 := by
  obtain ⟨-, -, -, -, -, -, -, -, e0, e1, -⟩ := idx_facts t
  funext y
  show V c main_v27 (((cfg0.win 4).blk t).view.emb y) = V c main_v27 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The output array the region leaves, as a function of the arrays it found. -/
abbrev result (c : Dev nD) : S50000x256.Idx → Elt Ideal .f32 :=
  out (V c main_v22) (V c main_arg0) (V c main_v24) (V c main_v26) (V c main_v27)

/-- What point `t` writes back is tile `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  rw [wl_whole, wr_whole, bias_whole]
  funext j
  obtain ⟨p, q, rfl⟩ : ∃ (p : Fin 5000) (q : Fin 256), j = ix2 p q := ⟨j 0, j 1, eq_ix2 j⟩
  have hN : cfg0.N = 10 := N_0
  have hn : t.val * 5000 + p.val < 50000 := by have := t.isLt; have := p.isLt; omega
  obtain ⟨-, -, -, -, -, -, -, -, -, -, e0, e1⟩ := idx_facts t
  have hemb : ((cfg0.win 5).blk t).view.emb (ix2 p q) = ix2 (⟨t.val * 5000 + p.val, hn⟩ : Fin 50000) q := by
    funext a; apply Fin.ext
    match a with
    | ⟨0, _⟩ => show win0_5.index t (0 : Fin 2) * 5000 + 1 * p.val = t.val * 5000 + p.val; rw [e0]; omega
    | ⟨1, _⟩ => show win0_5.index t (1 : Fin 2) * 256 + 1 * q.val = q.val; rw [e1]; omega
  show k0_pay1 (iblk0 V c 0 t) (iblk0 V c 1 t) (V c main_v24) (V c main_v26) (V c main_v27) (ix2 p q)
      = result V c (((cfg0.win 5).blk t).view.emb (ix2 p q))
  rw [hemb]
  exact tile_eq (iblk0 V c 0 t) (iblk0 V c 1 t) (V c main_v24) (V c main_v26) (V c main_v27) (V c main_v22) (V c main_arg0) p q
    ⟨t.val * 5000 + p.val, hn⟩ (fun k => agg_rows V c t p k _ rfl) (fun k => feat_rows V c t p k _ rfl)

/-- An index of the output is in tile `t` iff each coordinate is in the tile's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28).slice (win0_5.rect t)).set ↔ _
  rw [View.set_slice_whole, Rect.mem_set_unit]
  exact Iff.rfl

/-- Every row of the output lies in the tile numbered by its quotient by 5000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  have ht : (i 0).val / 5000 < cfg0.N := by rw [hN]; omega
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 256 ≤ (i 1).val ∧ (i 1).val < win0_5.index ⟨(i 0).val / 5000, ht⟩ (1 : Fin 2) * 256 + 256
    rw [e1]; omega

/-- The first layer's output array after the region: `result`. -/
theorem final_eq (c : Dev nD) : (dat0 V c).arrAt 5 cfg0.N = result V c :=
  (dat0 V c).arrAt_eq_of_cover 5 (result V c) (fun t _ => flushed_eq V c t) cover

end Cert.KernelIdeal.Layer1

end
-- ==== Proof.Layer2Value.lean ====
/-
  The second layer, read off the second region's pipeline.

  The region again walks the 50000 nodes in ten tiles of 5000 rows.  At tile `t` the body loads rows `5000·t … 5000·t + 4999`
  of the aggregated hidden features and of the hidden features (256 columns each), the two transposed second-layer weights
  whole (256 rows, 2 columns), and the bias row, and stores  (agg_tile · Wl + h_tile · Wr) + bias  as the same rows of the
  two-column output; there is no nonlinearity after this layer.  Row `p` of tile `t` depends only on row `5000·t + p` of the two
  inputs, so every tile is the restriction of ONE whole-array function, `SageSpec.layer`, and the ten tiles cover the output.
  Everything is stated at a parameter `V`, the buffer contents when the region is entered.
-/
import proofs.«136479_j45432164057403_1_alg».proof.Proof.KernelIdealFrame
import proofs.«136479_j45432164057403_1_alg».proof.Proof.LibRowOps
import proofs.«136479_j45432164057403_1_alg».proof.Proof.Spec
import Idealize.ShloMosaic.Lib.Pipeline.Value
import Idealize.ShloMosaic.Lib.ValueLayout

noncomputable section

open scoped BigOperators

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's contraction is the plain matrix product over the 256 hidden features. -/
theorem hdot : dot_S5000x256_S256x2_S5000x2_1_0_0_1_n_n = DotDims.plain 5000 256 2 := rfl

/-- What the body stores at row `p`, column `q` of its tile, from the blocks it loaded. -/
theorem pay_apply (x0 x1 : Vec Ideal S5000x256 .f32) (x2 x3 : Vec Ideal S256x2 .bf16) (x4 : Vec Ideal S1x2 .f32)
    (p : Fin 5000) (q : Fin 2) :
    k1_pay1 x0 x1 x2 x3 x4 (ix2 p q)
      = ((∑ k : Fin 256, x0 (ix2 p k) * x2 (ix2 k q)) + ∑ k : Fin 256, x1 (ix2 p k) * x3 (ix2 k q)) + x4 (ix2 (0 : Fin 1) q) := by
  unfold k1_pay1
  simp only [shapeCast_self]
  show (matmul (F := Ideal) dot_S5000x256_S256x2_S5000x2_1_0_0_1_n_n none (truncf .bf16 x0 bitsLt_bf16_f32) x2 (constant (F := Ideal) S5000x2 .f32 0x00000000#32) (ix2 p q)
      + matmul (F := Ideal) dot_S5000x256_S256x2_S5000x2_1_0_0_1_n_n none (truncf .bf16 x1 bitsLt_bf16_f32) x3 (constant (F := Ideal) S5000x2 .f32 0x00000000#32) (ix2 p q))
      + broadcastTo S5000x2 x4 broadcasts_S1x2_S5000x2 (ix2 p q) = _
  rw [RowOps.matmul_plain_apply _ hdot, RowOps.matmul_plain_apply _ hdot, broadcastTo_1b_ab_apply]
  rfl

/-- The layer's output as one function of the five arrays the region reads (the bias given as its one row). -/
abbrev out (a f : S50000x256.Idx → Elt Ideal .f32) (wl wr : S256x2.Idx → Elt Ideal .bf16) (b : S1x2.Idx → Elt Ideal .f32) :
    S50000x2.Idx → Elt Ideal .f32 :=
  SageSpec.layer (N := 50000) (K := 256) (H := 2) a f wl wr (fun q => b (ix2 (0 : Fin 1) q))

/-- A tile whose rows are rows `n` of the two inputs stores row `n` of the layer's output. -/
theorem tile_eq (x0 x1 : Vec Ideal S5000x256 .f32) (x2 x3 : Vec Ideal S256x2 .bf16) (x4 : Vec Ideal S1x2 .f32)
    (a f : S50000x256.Idx → Elt Ideal .f32) (p : Fin 5000) (q : Fin 2) (n : Fin 50000)
    (h0 : ∀ k : Fin 256, x0 (ix2 p k) = a (ix2 n k)) (h1 : ∀ k : Fin 256, x1 (ix2 p k) = f (ix2 n k)) :
    k1_pay1 x0 x1 x2 x3 x4 (ix2 p q) = out a f x2 x3 x4 (ix2 n q) := by
  rw [pay_apply]
  show _ = SageSpec.lin a f x2 x3 (fun q => x4 (ix2 (0 : Fin 1) q)) n q
  unfold SageSpec.lin
  simp only [h0, h1]

/-- The printed index maps over the grid: the two row-blocked inputs and the output move one tile per point,
    the weights and the bias stay at block zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Row `p` of the aggregated hidden features' tile `t` is row `5000·t + p` of the array. -/
theorem agg_rows (c : Dev nD) (t : Fin cfg1.N) (p : Fin 5000) (k : Fin 256) (n : Fin 50000) (hn : n.val = t.val * 5000 + p.val) :
    (iblk1 V c 0 t : Vec Ideal S5000x256 .f32) (ix2 p k) = (V c main_v47 : S50000x256.Idx → Elt Ideal .f32) (ix2 n k) := by
  obtain ⟨e0, e1, -⟩ := idx_facts t
  show V c main_v47 (((cfg1.win 0).blk t).view.emb (ix2 p k)) = V c main_v47 (ix2 n k)
  refine congrArg _ (funext fun a => Fin.ext ?_)
  match a with
  | ⟨0, _⟩ => show win1_0.index t (0 : Fin 2) * 5000 + 1 * p.val = n.val; rw [e0, hn]; omega
  | ⟨1, _⟩ => show win1_0.index t (1 : Fin 2) * 256 + 1 * k.val = k.val; rw [e1]; omega

/-- Row `p` of the hidden features' tile `t` is row `5000·t + p` of the array. -/
theorem feat_rows (c : Dev nD) (t : Fin cfg1.N) (p : Fin 5000) (k : Fin 256) (n : Fin 50000) (hn : n.val = t.val * 5000 + p.val) :
    (iblk1 V c 1 t : Vec Ideal S5000x256 .f32) (ix2 p k) = (V c main_v28 : S50000x256.Idx → Elt Ideal .f32) (ix2 n k) := by
  obtain ⟨-, -, e0, e1, -⟩ := idx_facts t
  show V c main_v28 (((cfg1.win 1).blk t).view.emb (ix2 p k)) = V c main_v28 (ix2 n k)
  refine congrArg _ (funext fun a => Fin.ext ?_)
  match a with
  | ⟨0, _⟩ => show win1_1.index t (0 : Fin 2) * 5000 + 1 * p.val = n.val; rw [e0, hn]; omega
  | ⟨1, _⟩ => show win1_1.index t (1 : Fin 2) * 256 + 1 * k.val = k.val; rw [e1]; omega

/-- The first weight window's block is the whole array at every point. -/
theorem wl_whole (c : Dev nD) (t : Fin cfg1.N) : (iblk1 V c 2 t : Vec Ideal S256x2 .bf16) = V c main_v49 := by
  obtain ⟨-, -, -, -, e0, e1, -⟩ := idx_facts t
  funext y
  show V c main_v49 (((cfg1.win 2).blk t).view.emb y) = V c main_v49 y
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 2 + 1 * (y 1).val = (y 1).val; rw [e1]; omega

/-- The second weight window's block is the whole array at every point. -/
theorem wr_whole (c : Dev nD) (t : Fin cfg1.N) : (iblk1 V c 3 t : Vec Ideal S256x2 .bf16) = V c main_v51 := by
  obtain ⟨-, -, -, -, -, -, e0, e1, -⟩ := idx_facts t
  funext y
  show V c main_v51 (((cfg1.win 3).blk t).view.emb y) = V c main_v51 y
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 2 + 1 * (y 1).val = (y 1).val; rw [e1]; omega

/-- The bias window's block is the whole one-row array at every point. -/
theorem bias_whole (c : Dev nD) (t : Fin cfg1.N) : (iblk1 V c 4 t : Vec Ideal S1x2 .f32) = V c main_v52 := by
  obtain ⟨-, -, -, -, -, -, -, -, e0, e1, -⟩ := idx_facts t
  funext y
  show V c main_v52 (((cfg1.win 4).blk t).view.emb y) = V c main_v52 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 2 + 1 * (y 1).val = (y 1).val; rw [e1]; omega

/-- The output array the region leaves, as a function of the arrays it found. -/
abbrev result (c : Dev nD) : S50000x2.Idx → Elt Ideal .f32 :=
  out (V c main_v47) (V c main_v28) (V c main_v49) (V c main_v51) (V c main_v52)

/-- What point `t` writes back is tile `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S256x2) hz, View.ld_unit_zero (S := S1x2) hz]
  rw [wl_whole, wr_whole, bias_whole]
  funext j
  obtain ⟨p, q, rfl⟩ : ∃ (p : Fin 5000) (q : Fin 2), j = ix2 p q := ⟨j 0, j 1, eq_ix2 j⟩
  have hN : cfg1.N = 10 := N_1
  have hn : t.val * 5000 + p.val < 50000 := by have := t.isLt; have := p.isLt; omega
  obtain ⟨-, -, -, -, -, -, -, -, -, -, e0, e1⟩ := idx_facts t
  have hemb : ((cfg1.win 5).blk t).view.emb (ix2 p q) = ix2 (⟨t.val * 5000 + p.val, hn⟩ : Fin 50000) q := by
    funext a; apply Fin.ext
    match a with
    | ⟨0, _⟩ => show win1_5.index t (0 : Fin 2) * 5000 + 1 * p.val = t.val * 5000 + p.val; rw [e0]; omega
    | ⟨1, _⟩ => show win1_5.index t (1 : Fin 2) * 2 + 1 * q.val = q.val; rw [e1]; omega
  show k1_pay1 (iblk1 V c 0 t) (iblk1 V c 1 t) (V c main_v49) (V c main_v51) (V c main_v52) (ix2 p q)
      = result V c (((cfg1.win 5).blk t).view.emb (ix2 p q))
  rw [hemb]
  exact tile_eq (iblk1 V c 0 t) (iblk1 V c 1 t) (V c main_v49) (V c main_v51) (V c main_v52) (V c main_v47) (V c main_v28) p q
    ⟨t.val * 5000 + p.val, hn⟩ (fun k => agg_rows V c t p k _ rfl) (fun k => feat_rows V c t p k _ rfl)

/-- An index of the output is in tile `t` iff each coordinate is in the tile's range on its axis. -/
theorem mem_blk (t : Fin cfg1.N) (i : S50000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v53).slice (win1_5.rect t)).set ↔ _
  rw [View.set_slice_whole, Rect.mem_set_unit]
  exact Iff.rfl

/-- Every row of the output lies in the tile numbered by its quotient by 5000. -/
theorem cover (i : S50000x2.Idx) : ∃ t : Fin cfg1.N, (cfg1.win 5).flush t = true ∧ i ∈ ((cfg1.win 5).blk t).view.set := by
  have hi0 : (i 0).val < 50000 := (i 0).isLt
  have hi1 : (i 1).val < 2 := (i 1).isLt
  have hN : cfg1.N = 10 := N_1
  have ht : (i 0).val / 5000 < cfg1.N := by rw [hN]; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 2 ≤ (i 1).val ∧ (i 1).val < win1_5.index ⟨(i 0).val / 5000, ht⟩ (1 : Fin 2) * 2 + 2
    rw [e1]; omega

/-- The second layer's output array after the region: `result`. -/
theorem final_eq (c : Dev nD) : (dat1 V c).arrAt 5 cfg1.N = result V c :=
  (dat1 V c).arrAt_eq_of_cover 5 (result V c) (fun t _ => flushed_eq V c t) cover

end Cert.KernelIdeal.Layer2

end
-- ==== Proof.Model.lean ====
/-
  The two-layer network as functions of the argument arrays, at the ideal values.

  `hidden` is the first layer: the mean aggregation of the node features and the node features themselves through the
  first layer's linear combine, then the positive part.  `output` is the second layer: the mean aggregation of `hidden`
  (over the same edges) and `hidden` itself through the second layer's linear combine, with no nonlinearity.
  Both programs end at `output` of their arguments; the weights enter transposed, the biases as the one row they are
  reshaped to.
-/
import proofs.«136479_j45432164057403_1_alg».proof.Proof.KAgg
import proofs.«136479_j45432164057403_1_alg».proof.Proof.Spec

noncomputable section

namespace Cert.KernelIdeal.Hand

open Cert.KernelIdeal Cert.KernelIdeal.Facts₀ Idealize.ShloMosaic Idealize.ShloMosaic.ValueIdx

/-- The hidden features: 50000 nodes, 256 features each. -/
def hidden (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) : (⟨S50000x256, .f32⟩ : BufTy).Contents (Elt Ideal) :=
  SageSpec.layerRelu (N := 50000) (K := 128) (H := 256) (agg128 x0 x1) x0 (wT128 x2) (wT128 x4)
    (fun q => shapeCast S1x256 x3 shapeCasts_S256_S1x256 (ix2 (0 : Fin 1) q))

/-- The network's output: 50000 nodes, 2 features each. -/
def output (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (x5 : (⟨S2x256, .f32⟩ : BufTy).Contents (Elt Ideal))
    (x6 : (⟨S2, .f32⟩ : BufTy).Contents (Elt Ideal)) (x7 : (⟨S2x256, .f32⟩ : BufTy).Contents (Elt Ideal)) :
    (⟨S50000x2, .f32⟩ : BufTy).Contents (Elt Ideal) :=
  SageSpec.layer (N := 50000) (K := 256) (H := 2) (agg256 (hidden x0 x1 x2 x3 x4) x1) (hidden x0 x1 x2 x3 x4) (wT256 x5) (wT256 x7)
    (fun q => shapeCast S1x2 x6 shapeCasts_S2_S1x2 (ix2 (0 : Fin 1) q))

end Cert.KernelIdeal.Hand

end
-- ==== Proof.KernelValue.lean ====
/-
  The kernel's program ends at `output` of its arguments.

  The result buffer holds what the second region's pipeline leaves: the second layer of the arrays that region found.
  Those are the host's aggregation of the first region's output, that output itself, and the second layer's weights
  and bias; the first region's output is the first layer of the arrays IT found, which are the host's aggregation of
  the node features, the node features, and the first layer's weights and bias.  Composed, that is `output`.
-/
import proofs.«136479_j45432164057403_1_alg».proof.Proof.KernelRun
import proofs.«136479_j45432164057403_1_alg».proof.Proof.HostK
import proofs.«136479_j45432164057403_1_alg».proof.Proof.Layer1Value
import proofs.«136479_j45432164057403_1_alg».proof.Proof.Layer2Value
import proofs.«136479_j45432164057403_1_alg».proof.Proof.Model

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg)

/-- After the first region its output buffer holds the hidden features of the arguments. -/
theorem hidden_eq (c : Dev nD) :
    (W2 m ρ c (Proc.devRef .tc main_v28) : (⟨S50000x256, .f32⟩ : BufTy).Contents (Elt Ideal))
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  rw [W2_hidden, Layer1.final_eq (V1 m ρ) c]
  show Layer1.out (V1 m ρ c main_v22) (V1 m ρ c main_arg0) (V1 m ρ c main_v24) (V1 m ρ c main_v26) (V1 m ρ c main_v27) = _
  rw [V1_agg, V1_feat, V1_wl, V1_wr, V1_bias]
  rfl

/-- After the second region the result buffer holds the network's output of the arguments. -/
theorem output_eq (c : Dev nD) :
    (W4 m ρ c (Proc.devRef .tc main_v53) : (⟨S50000x2, .f32⟩ : BufTy).Contents (Elt Ideal))
      = output (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  rw [Layer2.final_eq (V3 m ρ) c]
  show Layer2.out (V3 m ρ c main_v47) (V3 m ρ c main_v28) (V3 m ρ c main_v49) (V3 m ρ c main_v51) (V3 m ρ c main_v52) = _
  rw [V3_agg, V3_feat, V3_wl, V3_wr, V3_bias, hidden_eq]
  rfl

/-- The kernel's run with its result read: every weakly fair execution terminates without a fault, the result at
    `output` of the arguments and the arguments unchanged. -/
theorem run_value : θ_run defs (onTc (τ := τ) (main (F := Ideal))) ⟨m, fun _ => 0, ρ⟩ (fun r => ∀ c : Dev nD,
      r.2.mem ((c.tc : Thread nD τ).loc main_v53)
        = output (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (output_eq m ρ c), (h c).2⟩) (run_named m ρ)

end Cert.KernelIdeal.Hand

end
-- ==== Proof.RefValue.lean ====
/-
  The reference program ends at `output` of its arguments.

  The reference spells the same network on the host alone.  Its two mean aggregations are, operation for operation, the
  kernel program's (`agg128`, `agg256`): the stages are unfolded down to the edge rows and compared as they stand, no
  gather or scatter is opened.  Each layer is a `dot_general` of the aggregated features with the transposed neighbour
  weight, plus the bias broadcast down the rows, plus a `dot_general` of the features with the transposed self weight:
  the same two sums over the feature axis as the kernel's, with the bias added between them instead of last, which is
  the same extended real (`SageSpec.lin_bias_first`).  The kernel narrows its weights, which changes no ideal value, and
  reads each bias from the one row it was reshaped to, which holds the bias entry by entry.
-/
import proofs.«136479_j45432164057403_1_alg».proof.Proof.Gen.ReferenceIdeal.Read
import proofs.«136479_j45432164057403_1_alg».proof.Proof.Model
import proofs.«136479_j45432164057403_1_alg».proof.Proof.LibRowOps
import Idealize.ShloMosaic.Lib.ValueLayout

set_option maxRecDepth 16384

noncomputable section

open scoped BigOperators

namespace Cert.ReferenceIdeal.Hand

open Cert.ReferenceIdeal Cert.ReferenceIdeal.Gen Cert.ReferenceIdeal.Read
open Idealize.ShloMosaic Idealize.ShloMosaic.ValueIdx
open Cert.KernelIdeal.Hand (agg128 agg256 degree srcIdx dstIdx srcRow dstRow wT128 wT256 hidden output)

/-! ## The aggregations are the kernel program's -/

section Generic

variable {F : FTy → Type} [FloatOps F]

/-- The reference's aggregation of the node features. -/
theorem agg1_eq (x0 : (⟨S50000x128, .f32⟩ : BufTy).Contents (Elt F)) (x1 : (⟨S2x800000, .i32⟩ : BufTy).Contents (Elt F)) :
    val_main_v22 (F := F) x0 x1 = agg128 x0 x1 := by
  unfold val_main_v22 val_main_v21 val_main_v20 val_main_v19 val_main_v18 val_main_cst_3 val_main_v17 val_main_v16 val_main_v15
    val_main_cst_2 val_main_v14 val_main_cst_1 val_main_v13 val_main_v12 val_main_v11 val_main_cst val_main_v10 val_main_v9
    val_main_v8 val_main_v7 val_main_v6 val_main_c_0 val_main_v5 val_main_v4 val_main_c val_main_v3 val_main_v2 val_main_v1 val_main_v0
    agg128 degree dstIdx srcIdx srcRow dstRow
  rfl

/-- The reference's aggregation of its hidden features (whatever those are: the stage is kept folded). -/
theorem agg2_eq (x0 : (⟨S50000x128, .f32⟩ : BufTy).Contents (Elt F)) (x1 : (⟨S2x800000, .i32⟩ : BufTy).Contents (Elt F)) (x2 : (⟨S256x128, .f32⟩ : BufTy).Contents (Elt F)) (x3 : (⟨S256, .f32⟩ : BufTy).Contents (Elt F)) (x4 : (⟨S256x128, .f32⟩ : BufTy).Contents (Elt F)) :
    val_main_v50 (F := F) x0 x1 x2 x3 x4 = agg256 (val_main_v31 (F := F) x0 x1 x2 x3 x4) x1 := by
  unfold val_main_v50 val_main_v49 val_main_v48 val_main_v47 val_main_v46 val_main_cst_9 val_main_v45 val_main_v44 val_main_v43
    val_main_cst_8 val_main_v42 val_main_cst_7 val_main_v41 val_main_v40 val_main_v39 val_main_cst_6 val_main_v38 val_main_v37
    val_main_v36 val_main_v35 val_main_v34 val_main_c_5 val_main_v33 val_main_v32 val_main_c_4 val_main_v3 val_main_v2 val_main_v1 val_main_v0
    agg256 degree dstIdx srcIdx srcRow dstRow
  rfl

end Generic

/-! ## The layers -/

/-- The reference's contractions are plain matrix products. -/
theorem hdot1 : dot_S50000x128_S128x256_S50000x256_1_0_0_1_n_n = DotDims.plain 50000 128 256 := rfl
theorem hdot2 : dot_S50000x256_S256x2_S50000x2_1_0_0_1_n_n = DotDims.plain 50000 256 2 := rfl

section HostLayer

variable {N K H : ℕ}

/-- A host layer read at node `n`, feature `q`: two `dot_general`s with the bias, broadcast in two steps, added between
    them, is the linear combine with the bias added last. -/
theorem host_layer (d : DotDims ⟨2, ![N, K]⟩ ⟨2, ![K, H]⟩ ⟨2, ![N, H]⟩) (hd : d = DotDims.plain N K H)
    (A X : FVec Ideal ⟨2, ![N, K]⟩ .f32) (WL WR : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![N, H]⟩ ![0, 1])
    (n : Fin N) (q : Fin H) :
    addf (addf (Host.dotGeneral d none A WL) (broadcastInDim ⟨2, ![N, H]⟩ ![0, 1] h2 (broadcastInDim ⟨2, ![1, H]⟩ ![1] h1 b)))
        (Host.dotGeneral d none X WR) (ix2 n q)
      = SageSpec.lin A X WL WR (fun q => b (ix1 q)) n q := by
  show (Host.dotGeneral d none A WL (ix2 n q) + broadcastInDim ⟨2, ![N, H]⟩ ![0, 1] h2 (broadcastInDim ⟨2, ![1, H]⟩ ![1] h1 b) (ix2 n q))
      + Host.dotGeneral d none X WR (ix2 n q) = _
  rw [RowOps.dotGeneral_plain_apply d hd, RowOps.dotGeneral_plain_apply d hd, RowOps.bias_bcast_apply b _ rfl h1 _ rfl rfl h2 n q]
  exact SageSpec.lin_bias_first A X WL WR (fun q => b (ix1 q)) n q

/-- The same followed by the host's positive part (the maximum with the zero constant broadcast from a scalar). -/
theorem host_layer_relu (d : DotDims ⟨2, ![N, K]⟩ ⟨2, ![K, H]⟩ ⟨2, ![N, H]⟩) (hd : d = DotDims.plain N K H)
    (A X : FVec Ideal ⟨2, ![N, K]⟩ .f32) (WL WR : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![N, H]⟩ ![0, 1])
    (h0 : (⟨0, ![]⟩ : Shape).BroadcastsInDim ⟨2, ![N, H]⟩ ![]) (n : Fin N) (q : Fin H) :
    maximumf
        (addf (addf (Host.dotGeneral d none A WL) (broadcastInDim ⟨2, ![N, H]⟩ ![0, 1] h2 (broadcastInDim ⟨2, ![1, H]⟩ ![1] h1 b)))
          (Host.dotGeneral d none X WR))
        (broadcastInDim ⟨2, ![N, H]⟩ ![] h0 (constant (F := Ideal) ⟨0, ![]⟩ .f32 0x00000000#32)) (ix2 n q)
      = max (SageSpec.lin A X WL WR (fun q => b (ix1 q)) n q) (Ideal.ofBits .f32 0x00000000#32) := by
  show max (addf (addf (Host.dotGeneral d none A WL) (broadcastInDim ⟨2, ![N, H]⟩ ![0, 1] h2 (broadcastInDim ⟨2, ![1, H]⟩ ![1] h1 b)))
      (Host.dotGeneral d none X WR) (ix2 n q)) (Ideal.ofBits .f32 0x00000000#32) = _
  rw [host_layer d hd A X WL WR b h1 h2 n q]

end HostLayer

/-- A narrowed transposed first-layer weight holds the transposed weight's values. -/
theorem wT128_eq (x2 : (⟨S256x128, .f32⟩ : BufTy).Contents (Elt Ideal)) : (wT128 x2 : S128x256.Idx → EReal) = val_main_v23 (F := Ideal) x2 := rfl
/-- A narrowed transposed second-layer weight holds the transposed weight's values. -/
theorem wT256_eq (x5 : (⟨S2x256, .f32⟩ : BufTy).Contents (Elt Ideal)) : (wT256 x5 : S256x2.Idx → EReal) = val_main_v51 (F := Ideal) x5 := rfl
/-- The self weights are transposed as the neighbour weights are. -/
theorem self1_eq (x4 : (⟨S256x128, .f32⟩ : BufTy).Contents (Elt Ideal)) : val_main_v28 (F := Ideal) x4 = val_main_v23 (F := Ideal) x4 := rfl
theorem self2_eq (x7 : (⟨S2x256, .f32⟩ : BufTy).Contents (Elt Ideal)) : val_main_v56 (F := Ideal) x7 = val_main_v51 (F := Ideal) x7 := rfl

/-- The first bias read from its one row is the bias. -/
theorem bias1_eq (x3 : (⟨S256, .f32⟩ : BufTy).Contents (Elt Ideal)) (h : (⟨1, ![256]⟩ : Shape).ShapeCasts ⟨2, ![1, 256]⟩) :
    (fun q : Fin 256 => shapeCast ⟨2, ![1, 256]⟩ x3 h (ix2 (0 : Fin 1) q)) = fun q => x3 (ix1 q) :=
  funext fun q => shapeCast_a_1a_apply x3 h 0 q
/-- The second bias read from its one row is the bias. -/
theorem bias2_eq (x6 : (⟨S2, .f32⟩ : BufTy).Contents (Elt Ideal)) (h : (⟨1, ![2]⟩ : Shape).ShapeCasts ⟨2, ![1, 2]⟩) :
    (fun q : Fin 2 => shapeCast ⟨2, ![1, 2]⟩ x6 h (ix2 (0 : Fin 1) q)) = fun q => x6 (ix1 q) :=
  funext fun q => shapeCast_a_1a_apply x6 h 0 q

/-- The reference's hidden features are `hidden` of its arguments. -/
theorem hidden_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) :
    val_main_v31 (F := Ideal) x0 x1 x2 x3 x4 = hidden x0 x1 x2 x3 x4 := by
  funext i
  obtain ⟨n, q, rfl⟩ : ∃ (n : Fin 50000) (q : Fin 256), i = ix2 n q := ⟨i 0, i 1, eq_ix2 i⟩
  unfold val_main_v31 val_main_v30 val_main_v27 val_main_v24 val_main_v29 val_main_v26 val_main_v25 val_main_call0_v0 val_main_call0_cst
  rw [agg1_eq]
  refine (host_layer_relu _ hdot1 (agg128 x0 x1) x0 (val_main_v23 (F := Ideal) x2) (val_main_v28 (F := Ideal) x4) x3
    bcast_S256_S1x256_1 bcast_S1x256_S50000x256_0_1 bcast_S_S50000x256 n q).trans ?_
  unfold Cert.KernelIdeal.Hand.hidden
  rw [SageSpec.layerRelu_apply, bias1_eq, wT128_eq, wT128_eq, self1_eq]

/-- The reference's result is `output` of its arguments. -/
theorem output_eq (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal))
    (x5 : (⟨S2x256, .f32⟩ : BufTy).Contents (Elt Ideal)) (x6 : (⟨S2, .f32⟩ : BufTy).Contents (Elt Ideal)) (x7 : (⟨S2x256, .f32⟩ : BufTy).Contents (Elt Ideal)) :
    val_main_v58 (F := Ideal) x0 x1 x2 x3 x4 x5 x6 x7 = output x0 x1 x2 x3 x4 x5 x6 x7 := by
  funext i
  obtain ⟨n, q, rfl⟩ : ∃ (n : Fin 50000) (q : Fin 2), i = ix2 n q := ⟨i 0, i 1, eq_ix2 i⟩
  unfold val_main_v58 val_main_v55 val_main_v52 val_main_v57 val_main_v54 val_main_v53
  rw [agg2_eq, hidden_eq]
  refine (host_layer _ hdot2 (agg256 (hidden x0 x1 x2 x3 x4) x1) (hidden x0 x1 x2 x3 x4) (val_main_v51 (F := Ideal) x5)
    (val_main_v56 (F := Ideal) x7) x6 bcast_S2_S1x2_1 bcast_S1x2_S50000x2_0_1 n q).trans ?_
  unfold Cert.KernelIdeal.Hand.output
  rw [SageSpec.layer_apply, bias2_eq, wT256_eq, wT256_eq, self2_eq]

end Cert.ReferenceIdeal.Hand

end
-- ==== Proof.lean ====
/-
  A two-layer mean-aggregating graph convolution (50000 nodes, 800000 edges, 128 → 256 → 2 features): the kernel program
  against the host reference, over the extended reals.

  Both programs compute, for each layer, the mean over a node's in-neighbours of the incoming features (a gather along
  the edges' sources, a sum into the edges' targets, a division by the in-degree clamped below by one), and then
        out[n, h] = ∑ k, agg[n, k] · Wl[h, k]  +  ∑ k, feat[n, k] · Wr[h, k]  +  b[h],
  followed after the first layer only by the positive part.  The kernel program keeps the aggregation on the host,
  spelt exactly as the reference spells it, and runs the linear combine of each layer as a pipelined region over ten
  tiles of 5000 nodes, with the weights transposed and narrowed beforehand and the bias reshaped to one row; the
  reference runs two `dot_general`s per layer and adds the bias between them.  At the ideal values narrowing changes
  nothing, a tile's rows depend only on the same rows of its inputs, and the three summands may be added in either order
  (addition on the extended reals is commutative and associative), so both programs end at one function of the
  arguments, `Cert.KernelIdeal.Hand.output`; the precondition is never opened.

  The frames of the two kernel programs are the generated frame certificates (two regions, each of the simplest class);
  the reference's frame is its generated run with the result dropped; the idealization rewrote no operation.
-/
import proofs.«136479_j45432164057403_1_alg».proof.Defs
import proofs.«136479_j45432164057403_1_alg».proof.Proof.Gen.Kernel
import proofs.«136479_j45432164057403_1_alg».proof.Proof.Gen.Kernel.Skeleton
import proofs.«136479_j45432164057403_1_alg».proof.Proof.KernelLaunch
import proofs.«136479_j45432164057403_1_alg».proof.Proof.Gen.Kernel.Points
import proofs.«136479_j45432164057403_1_alg».proof.Proof.KernelFrame
import proofs.«136479_j45432164057403_1_alg».proof.Proof.Gen.KernelIdeal
import proofs.«136479_j45432164057403_1_alg».proof.Proof.Gen.KernelIdeal.Skeleton
import proofs.«136479_j45432164057403_1_alg».proof.Proof.KernelIdealLaunch
import proofs.«136479_j45432164057403_1_alg».proof.Proof.Gen.KernelIdeal.Points
import proofs.«136479_j45432164057403_1_alg».proof.Proof.KernelIdealFrame
import proofs.«136479_j45432164057403_1_alg».proof.Proof.KernelValue
import proofs.«136479_j45432164057403_1_alg».proof.Proof.Gen.ReferenceIdeal
import proofs.«136479_j45432164057403_1_alg».proof.Proof.Gen.ReferenceIdeal.Run
import proofs.«136479_j45432164057403_1_alg».proof.Proof.Gen.ReferenceIdeal.Read
import proofs.«136479_j45432164057403_1_alg».proof.Proof.RefValue
import proofs.«136479_j45432164057403_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.GenP.frame m ρ

/-- The idealized kernel program runs and leaves its arguments unchanged. -/
theorem frame_kernelIdeal : Cert.frame_KernelIdeal := fun m ρ _ => Cert.KernelIdeal.GenP.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end at the network's output of the arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v58_eq, Cert.ReferenceIdeal.Hand.output_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
